-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S1x1x1024x1024 : Shape := ⟨4, ![1, 1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  iota_S1024x1024_d0_w32 : S1024x1024.Iotas .tc 32 [0]
  rotates_S1024x1024_d0 : S1024x1024.Rotates 0 none
  iota_S1024x1024_d1_w32 : S1024x1024.Iotas .tc 32 [1]
  rotates_S1024x1024_d1 : S1024x1024.Rotates 1 none
  natLt_1_32 : 1 < 32
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S_, .f32⟩
  | .hbm, ⟨2, _⟩ => ⟨S_, .f32⟩
  | .hbm, ⟨3, _⟩ => ⟨S32x1x1024x1024, .f32⟩
  | .hbm, ⟨4, _⟩ => ⟨S32x1x1024x1024, .f32⟩
  | .hbm, ⟨5, _⟩ => ⟨S_, .f32⟩
  | .hbm, ⟨6, _⟩ => ⟨S32x1x1024x1024, .f32⟩
  | .hbm, ⟨7, _⟩ => ⟨S32x1x1024x1024, .f32⟩
  | .hbm, ⟨8, _⟩ => ⟨S_, .f32⟩
  | .hbm, ⟨9, _⟩ => ⟨S32x1x1024x1024, .f32⟩
  | .hbm, ⟨10, _⟩ => ⟨S32x1x1024x1024, .i1⟩
  | .hbm, ⟨11, _⟩ => ⟨S32x1x1024x1024, .f32⟩
  | .hbm, ⟨12, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x1x1024x1024_S32x1x1024x1024_w1s1p0_0_w1s1p0_0_w3s1p1_1_w3s1p1_1 : S32x1x1024x1024.ReduceWindows (![1, 1, 3, 3] : Fin 4 → Nat) ![1, 1, 1, 1] ![0, 0, 1, 1] ![0, 0, 1, 1] S32x1x1024x1024
  h_S_ : 0 < S_.numel
  bcast_S_S32x1x1024x1024 : S_.BroadcastsInDim S32x1x1024x1024 (![] : Fin 0 → Fin S32x1x1024x1024.rank)

variable [Facts₀]

class Facts : Prop extends Facts₀ where

variable [Facts]
-- ==== Proof.LibFoldMax.lean ====
/-
  A left fold of `max` over a list, in the extended reals, is the least upper bound of its starting value and
  the list's terms: it is above the start (`le_foldl_max_init`), above every term (`le_foldl_max_of_mem`), and
  below anything that is above both (`foldl_max_le`). The order of the list and the grouping of the maxima do
  not enter: only which terms occur. This is what a windowed maximum written as a fold from −∞ needs in order
  to be compared with the same maximum grouped another way.
-/
import Mathlib.Data.EReal.Basic

namespace Cert.LibFoldMax

variable {ι : Type}

/-- The fold stays below any bound of the start and of every term. -/
theorem foldl_max_le (g : ι → EReal) (u : EReal) :
    ∀ (l : List ι) (a : EReal), a ≤ u → (∀ n ∈ l, g n ≤ u) → l.foldl (fun r n => max r (g n)) a ≤ u
  | [], _, ha, _ => ha
  | n :: l, a, ha, h =>
    foldl_max_le g u l (max a (g n)) (max_le ha (h n (List.mem_cons_self ..)))
      (fun k hk => h k (List.mem_cons_of_mem _ hk))

/-- The fold is above its starting value. -/
theorem le_foldl_max_init (g : ι → EReal) :
    ∀ (l : List ι) (a : EReal), a ≤ l.foldl (fun r n => max r (g n)) a
  | [], _ => le_rfl
  | n :: l, a => (le_max_left a (g n)).trans (le_foldl_max_init g l (max a (g n)))

/-- The fold is above every term of the list. -/
theorem le_foldl_max_of_mem (g : ι → EReal) :
    ∀ (l : List ι) (a : EReal) (k : ι), k ∈ l → g k ≤ l.foldl (fun r n => max r (g n)) a
  | [], _, _, hk => absurd hk (List.not_mem_nil)
  | n :: l, a, k, hk => by
    rcases List.mem_cons.1 hk with rfl | hk
    · exact (le_max_right a (g k)).trans (le_foldl_max_init g l (max a (g k)))
    · exact le_foldl_max_of_mem g l (max a (g n)) k hk

/-- So two descriptions agree: the fold from `a` equals `u` as soon as `u` is above `a` and every term, and is
    itself reached — below the fold — which holds when `u` is a maximum of `a` and some of the terms. -/
theorem foldl_max_eq (g : ι → EReal) (l : List ι) (a u : EReal) (hau : a ≤ u) (hle : ∀ n ∈ l, g n ≤ u)
    (hge : u ≤ l.foldl (fun r n => max r (g n)) a) : l.foldl (fun r n => max r (g n)) a = u :=
  le_antisymm (foldl_max_le g u l a hau hle) hge

end Cert.LibFoldMax
-- ==== Proof.Pool.lean ====
/-
  The mathematics of the 3×3 maximum with a −∞ border, on one 1024 × 1024 image of extended reals.

  Surround the image by one ring of −∞ (`padded`: padded row `p` and column `q`, from 0 to 1025, hold the image's
  entry `(p − 1, q − 1)`, or −∞ on the ring). The window maximum around pixel `(r, c)` is the maximum of the nine
  padded entries at rows `r, r+1, r+2` and columns `c, c+1, c+2`. It can be taken in two groupings:

  * column by column (`colMax`, then `pool`): first the maximum of three vertically adjacent entries, then the
    maximum of three horizontally adjacent such column maxima. This is what two masked rotations along the rows
    followed by two masked rotations along the columns compute (`rowsMax_apply`, `colsMax_apply`): a rotation by 1
    brings the previous row (column), a rotation by 1023 the next one, and the mask puts −∞ where the rotation
    wrapped around the border;
  * as one left fold of `max` from −∞ over the nine window positions in row-major order, a position outside the
    image contributing −∞ (`reduceWindow_at`).

  The two agree because a fold of maxima is the least upper bound of its terms (the fold lemmas imported here): only
  which entries occur matters, not their order or grouping. No finiteness is used: `max` on the extended reals is
  associative, commutative and idempotent, and −∞ is its identity.

  The result at a pixel (`nmsAt`) keeps the pixel where `x − pool + ε > 0` and puts 0 elsewhere: the indicator of
  the comparison, as 0 or 1, times the pixel. The indicator is the same number whether the comparison's bit is first
  widened to a 32-bit word and read as a signed integer, or read directly as an unsigned one (`bit_toInt`).
-/
import Idealize.ShloMosaic.PureOps.Ideal
import Idealize.ShloMosaic.Lib.ValueIdx
import Idealize.ShloMosaic.Lib.KernelVsHost
import Idealize.ShloMosaic.Lib.Pipeline.Value
import Idealize.ShloMosaic.Lib.StableHlo.Predicate
import proofs.«177633_j22857815949340_1_alg».proof.Proof.LibFoldMax

noncomputable section

namespace Cert.Pool

open Idealize.ShloMosaic Idealize.ShloMosaic.ValueIdx

abbrev S4 : Shape := ⟨4, ![32, 1, 1024, 1024]⟩
abbrev S2 : Shape := ⟨2, ![1024, 1024]⟩
abbrev S0 : Shape := ⟨0, ![]⟩
/-- The window's shape: one image, one channel, three rows, three columns. -/
abbrev W : Shape := ⟨4, ![1, 1, 3, 3]⟩
/-- One image: rows by columns. -/
abbrev Img : Type := Fin 1024 → Fin 1024 → EReal

/-! ## The padded image and the window maximum -/

/-- The image inside one ring of −∞, at padded coordinates `p, q ∈ [0, 1025]`. -/
def padded (img : Img) (p q : ℕ) : EReal :=
  if h : (1 ≤ p ∧ p - 1 < 1024) ∧ (1 ≤ q ∧ q - 1 < 1024) then img ⟨p - 1, h.1.2⟩ ⟨q - 1, h.2.2⟩ else ⊥

/-- Inside the ring the padded image is the image, one step up and left. -/
theorem padded_in (img : Img) (p q : ℕ) (a b : Fin 1024) (hp : p = a.val + 1) (hq : q = b.val + 1) :
    padded img p q = img a b := by
  subst hp hq
  have ha := a.isLt
  have hb := b.isLt
  unfold padded
  rw [dif_pos ⟨⟨by omega, by omega⟩, ⟨by omega, by omega⟩⟩]
  exact congrArg₂ img (Fin.ext (Nat.add_sub_cancel ..)) (Fin.ext (Nat.add_sub_cancel ..))

/-- On the ring (and beyond it) the padded image is −∞. -/
theorem padded_out (img : Img) (p q : ℕ) (h : p = 0 ∨ 1025 ≤ p ∨ q = 0 ∨ 1025 ≤ q) : padded img p q = ⊥ := by
  unfold padded
  rw [dif_neg]
  omega

/-- The maximum of padded column `q` over the three padded rows `r, r+1, r+2`. -/
def colMax (img : Img) (r q : ℕ) : EReal := max (max (padded img r q) (padded img (r + 1) q)) (padded img (r + 2) q)

/-- The 3×3 window maximum around pixel `(r, c)`, −∞ outside the image: the maximum of three column maxima. -/
def pool (img : Img) (r c : ℕ) : EReal := max (max (colMax img r c) (colMax img r (c + 1))) (colMax img r (c + 2))

/-- The result at pixel `(r, c)`: the pixel where `x − pool + ε > 0`, zero elsewhere. -/
def nmsAt (img : Img) (r c : Fin 1024) : EReal :=
  FloatOps.mulf (F := Ideal) (φ := .f32)
    (FloatOps.uitofp (F := Ideal) .f32 (FloatOps.cmpf (F := Ideal) (φ := .f32) .ogt
      (FloatOps.addf (F := Ideal) (φ := .f32) (FloatOps.subf (F := Ideal) (φ := .f32) (img r c) (pool img r.val c.val))
        (FloatOps.ofBits (F := Ideal) .f32 0x3727C5AC#32))
      (FloatOps.ofBits (F := Ideal) .f32 0x00000000#32)))
    (img r c)

/-- The whole result array: image `i 0`'s result at pixel `(i 2, i 3)`. -/
def G (x : S4.Idx → EReal) : S4.Idx → EReal := fun i => nmsAt (fun a d => x (ix4 (i 0) (0 : Fin 1) a d)) (i 2) (i 3)

/-- A comparison's bit widened to 32 bits and read signed is the bit read unsigned. -/
theorem bit_toInt : ∀ b : BitVec 1, ((b.setWidth 32).toInt : ℤ) = (b.toNat : ℤ) := by decide

/-- −∞ as a 32-bit float word. -/
theorem negInf_eq : Ideal.ofBits .f32 0xFF800000#32 = (⊥ : EReal) := by simp [Ideal.ofBits, Ideal.ieee]

/-! ## The windowed maximum as a fold over the window's positions -/

/-- A fold of maxima from −∞ over all positions of a shape, in row-major order, is the least upper bound of the
    terms. -/
theorem foldl_rowMajor_eq (V : Shape) (T : V.Idx → EReal) (u : EReal) (hle : ∀ w, T w ≤ u)
    (hge : ∀ ub, (∀ w, T w ≤ ub) → u ≤ ub) :
    (List.finRange V.numel).foldl (fun r n => max r (T (V.rowMajor.symm n))) ⊥ = u := by
  apply le_antisymm
  · exact LibFoldMax.foldl_max_le _ u _ ⊥ bot_le (fun n _ => hle _)
  · refine hge _ (fun w => ?_)
    have h := LibFoldMax.le_foldl_max_of_mem (fun n => T (V.rowMajor.symm n)) (List.finRange V.numel) ⊥
      (V.rowMajor w) (List.mem_finRange _)
    rwa [Equiv.symm_apply_apply] at h

/-- One window position's term: the operand where the position, moved back by the low padding, is inside it, and
    −∞ where it is padding — which is the padded image at row `r + w 2`, column `c + w 3`. -/
theorem window_term (x : S4.Idx → EReal) (b : Fin 32) (r c : Fin 1024) (w : W.Idx) :
    (if hin : ∀ a : Fin 4, (![0, 0, 1, 1] : Fin 4 → ℕ) a ≤ ((ix4 b (0 : Fin 1) r c : S4.Idx) a).val * (![1, 1, 1, 1] : Fin 4 → ℕ) a + (w a).val ∧
        ((ix4 b (0 : Fin 1) r c : S4.Idx) a).val * (![1, 1, 1, 1] : Fin 4 → ℕ) a + (w a).val - (![0, 0, 1, 1] : Fin 4 → ℕ) a < S4.size a
      then x (fun a => ⟨((ix4 b (0 : Fin 1) r c : S4.Idx) a).val * (![1, 1, 1, 1] : Fin 4 → ℕ) a + (w a).val - (![0, 0, 1, 1] : Fin 4 → ℕ) a, (hin a).2⟩)
      else (⊥ : EReal))
    = padded (fun a d => x (ix4 b (0 : Fin 1) a d)) (r.val + (w 2).val) (c.val + (w 3).val) := by
  have hb := b.isLt
  have hr := r.isLt
  have hc := c.isLt
  have hw0 : (w 0).val < 1 := (w 0).isLt
  have hw1 : (w 1).val < 1 := (w 1).isLt
  have hw2 : (w 2).val < 3 := (w 2).isLt
  have hw3 : (w 3).val < 3 := (w 3).isLt
  by_cases hc' : (1 ≤ r.val + (w 2).val ∧ r.val + (w 2).val - 1 < 1024) ∧ (1 ≤ c.val + (w 3).val ∧ c.val + (w 3).val - 1 < 1024)
  · have hin : ∀ a : Fin 4, (![0, 0, 1, 1] : Fin 4 → ℕ) a ≤ ((ix4 b (0 : Fin 1) r c : S4.Idx) a).val * (![1, 1, 1, 1] : Fin 4 → ℕ) a + (w a).val ∧
        ((ix4 b (0 : Fin 1) r c : S4.Idx) a).val * (![1, 1, 1, 1] : Fin 4 → ℕ) a + (w a).val - (![0, 0, 1, 1] : Fin 4 → ℕ) a < S4.size a := by
      intro a
      match a with
      | ⟨0, _⟩ => show 0 ≤ b.val * 1 + (w 0).val ∧ b.val * 1 + (w 0).val - 0 < 32; omega
      | ⟨1, _⟩ => show 0 ≤ 0 * 1 + (w 1).val ∧ 0 * 1 + (w 1).val - 0 < 1; omega
      | ⟨2, _⟩ => show 1 ≤ r.val * 1 + (w 2).val ∧ r.val * 1 + (w 2).val - 1 < 1024; omega
      | ⟨3, _⟩ => show 1 ≤ c.val * 1 + (w 3).val ∧ c.val * 1 + (w 3).val - 1 < 1024; omega
    rw [dif_pos hin]
    unfold padded
    rw [dif_pos hc']
    refine congrArg x (funext fun a => Fin.ext ?_)
    match a with
    | ⟨0, _⟩ => show b.val * 1 + (w 0).val - 0 = b.val; omega
    | ⟨1, _⟩ => show 0 * 1 + (w 1).val - 0 = 0; omega
    | ⟨2, _⟩ => show r.val * 1 + (w 2).val - 1 = r.val + (w 2).val - 1; omega
    | ⟨3, _⟩ => show c.val * 1 + (w 3).val - 1 = c.val + (w 3).val - 1; omega
  · have hnin : ¬ ∀ a : Fin 4, (![0, 0, 1, 1] : Fin 4 → ℕ) a ≤ ((ix4 b (0 : Fin 1) r c : S4.Idx) a).val * (![1, 1, 1, 1] : Fin 4 → ℕ) a + (w a).val ∧
        ((ix4 b (0 : Fin 1) r c : S4.Idx) a).val * (![1, 1, 1, 1] : Fin 4 → ℕ) a + (w a).val - (![0, 0, 1, 1] : Fin 4 → ℕ) a < S4.size a := by
      intro hin
      have h2 : 1 ≤ r.val * 1 + (w 2).val ∧ r.val * 1 + (w 2).val - 1 < 1024 := hin 2
      have h3 : 1 ≤ c.val * 1 + (w 3).val ∧ c.val * 1 + (w 3).val - 1 < 1024 := hin 3
      apply hc'
      omega
    rw [dif_neg hnin]
    unfold padded
    rw [dif_neg hc']

/-- THE HOST'S WINDOWED MAXIMUM AT A PIXEL: the left fold of `max` from −∞ over the 1 × 1 × 3 × 3 window, padded by
    one low and one high on the two image axes, is the window maximum `pool` of that image. -/
theorem reduceWindow_at (x : S4.Idx → EReal) (v : S0.Idx → EReal) (hv : ∀ i, v i = ⊥)
    (h : S4.ReduceWindows (![1, 1, 3, 3] : Fin 4 → ℕ) ![1, 1, 1, 1] ![0, 0, 1, 1] ![0, 0, 1, 1] S4) (hu : 0 < S0.numel)
    (b : Fin 32) (r c : Fin 1024) :
    Host.reduceWindow (s := S4) (t := S4) (u := S0) (FloatOps.maximumf (F := Ideal) (φ := .f32))
        ![1, 1, 3, 3] ![1, 1, 1, 1] ![0, 0, 1, 1] ![0, 0, 1, 1] x v h hu (ix4 b (0 : Fin 1) r c)
      = pool (fun a d => x (ix4 b (0 : Fin 1) a d)) r.val c.val := by
  unfold Host.reduceWindow
  simp only [hv]
  refine foldl_rowMajor_eq W (fun w =>
    if hin : ∀ a : Fin 4, (![0, 0, 1, 1] : Fin 4 → ℕ) a ≤ ((ix4 b (0 : Fin 1) r c : S4.Idx) a).val * (![1, 1, 1, 1] : Fin 4 → ℕ) a + (w a).val ∧
        ((ix4 b (0 : Fin 1) r c : S4.Idx) a).val * (![1, 1, 1, 1] : Fin 4 → ℕ) a + (w a).val - (![0, 0, 1, 1] : Fin 4 → ℕ) a < S4.size a
      then x (fun a => ⟨((ix4 b (0 : Fin 1) r c : S4.Idx) a).val * (![1, 1, 1, 1] : Fin 4 → ℕ) a + (w a).val - (![0, 0, 1, 1] : Fin 4 → ℕ) a, (hin a).2⟩)
      else (⊥ : EReal)) _ ?_ ?_
  · intro w
    rw [window_term]
    have hw2 : (w 2).val < 3 := (w 2).isLt
    have hw3 : (w 3).val < 3 := (w 3).isLt
    have e2 : (w 2).val = 0 ∨ (w 2).val = 1 ∨ (w 2).val = 2 := by omega
    have e3 : (w 3).val = 0 ∨ (w 3).val = 1 ∨ (w 3).val = 2 := by omega
    rcases e2 with e2 | e2 | e2 <;> rcases e3 with e3 | e3 | e3 <;> rw [e2, e3] <;>
      simp only [pool, colMax, le_max_iff, le_refl, true_or, or_true, Nat.add_zero]
  · intro ub hub
    have key : ∀ dr dc : Fin 3, padded (fun a d => x (ix4 b (0 : Fin 1) a d)) (r.val + dr.val) (c.val + dc.val) ≤ ub :=
      fun dr dc => by
        have h1 := hub (ix4 (0 : Fin 1) (0 : Fin 1) dr dc)
        rwa [window_term] at h1
    exact max_le (max_le (max_le (max_le (key 0 0) (key 1 0)) (key 2 0)) (max_le (max_le (key 0 1) (key 1 1)) (key 2 1)))
      (max_le (max_le (key 0 2) (key 1 2)) (key 2 2))

end Cert.Pool

end
-- ==== Proof.Body.lean ====
/-
  The kernel's way to the 3×3 window maximum: masked rotations.

  A rotation of the image along the rows by 1 puts row `r − 1` at row `r` (and, wrapping, row 1023 at row 0); the
  mask then replaces row 0 by −∞, so the result at `(r, c)` is the padded image at padded row `r` (one above the
  pixel's own padded row `r + 1`). A rotation by 1023 puts row `r + 1` at row `r` (wrapping row 0 to row 1023), and
  the mask replaces row 1023 by −∞: the padded image at padded row `r + 2`. The maximum of the two with the image
  itself is the column maximum `colMax` (`rowsMax_apply`). The same two rotations along the columns, applied to the
  array of column maxima, give the maximum of three adjacent column maxima: the window maximum `pool`
  (`colsMax_apply`); at the first and last column the masked neighbour is −∞, which is also what a column maximum
  on the ring is. The rest of the body is pointwise (`body_apply`).
-/
import proofs.«177633_j22857815949340_1_alg».proof.Proof.Pool

noncomputable section

namespace Cert.Pool

open Idealize.ShloMosaic Idealize.ShloMosaic.ValueIdx

/-- Two small numbers give the same 32-bit word only when equal. -/
theorem ofNat_eq_iff (n k : ℕ) (hn : n < 1024) (hk : k < 1024) : BitVec.ofNat 32 n = BitVec.ofNat 32 k ↔ n = k := by
  have h32 : (1024 : ℕ) ≤ 2 ^ 32 := by norm_num
  constructor
  · intro h
    have h1 := congrArg BitVec.toNat h
    rw [BitVec.toNat_ofNat, BitVec.toNat_ofNat, Nat.mod_eq_of_lt (by omega), Nat.mod_eq_of_lt (by omega)] at h1
    exact h1
  · rintro rfl; rfl

theorem toNat_ofNat_small (n : ℕ) (hn : n < 1024) : (BitVec.ofNat 32 n).toNat = n := by
  have h32 : (1024 : ℕ) ≤ 2 ^ 32 := by norm_num
  rw [BitVec.toNat_ofNat]; exact Nat.mod_eq_of_lt (by omega)

section Rotations

variable (hi0 : S2.Iotas .tc 32 [(0 : Fin S2.rank)]) (hr0 : S2.Rotates (0 : Fin S2.rank) none)
variable (hi1 : S2.Iotas .tc 32 [(1 : Fin S2.rank)]) (hr1 : S2.Rotates (1 : Fin S2.rank) none)

/-- The image rotated along the rows by `sh`, with −∞ put on row `e`. -/
def rowShift (sh e : ℕ) (v : S2.Idx → EReal) : S2.Idx → EReal :=
  select (cmpi .eq (iota .tc S2 32 [(0 : Fin S2.rank)] hi0) (broadcast S2 (BitVec.ofNat 32 e)))
    (broadcast S2 (FloatOps.ofBits (F := Ideal) .f32 0xFF800000#32)) (dynamicRotate (0 : Fin S2.rank) (BitVec.ofNat 32 sh) none v hr0)

/-- The image rotated along the columns by `sh`, with −∞ put on column `e`. -/
def colShift (sh e : ℕ) (v : S2.Idx → EReal) : S2.Idx → EReal :=
  select (cmpi .eq (iota .tc S2 32 [(1 : Fin S2.rank)] hi1) (broadcast S2 (BitVec.ofNat 32 e)))
    (broadcast S2 (FloatOps.ofBits (F := Ideal) .f32 0xFF800000#32)) (dynamicRotate (1 : Fin S2.rank) (BitVec.ofNat 32 sh) none v hr1)

/-- At `(r, c)`: −∞ on the masked row, else the entry `sh` rows back, around the end. -/
theorem rowShift_apply (sh e : ℕ) (hsh : sh < 1024) (he : e < 1024) (v : S2.Idx → EReal) (r c : Fin 1024) :
    rowShift hi0 hr0 sh e v (ix2 r c)
      = if r.val = e then (⊥ : EReal) else v (ix2 (⟨(r.val + 1024 - sh) % 1024, Nat.mod_lt _ (by norm_num)⟩ : Fin 1024) c) := by
  have hr := r.isLt
  have hcond : (IntOp.cmpi .eq (BitVec.ofNat 32 r.val) (BitVec.ofNat 32 e) = 1#1) ↔ r.val = e :=
    StableHlo.Predicate.cmpi_eq_iff.trans (ofNat_eq_iff _ _ hr he)
  unfold rowShift
  show Scalar.select (IntOp.cmpi .eq (iota .tc S2 32 [(0 : Fin S2.rank)] hi0 (ix2 r c)) (BitVec.ofNat 32 e))
    (FloatOps.ofBits (F := Ideal) .f32 0xFF800000#32) (dynamicRotate (0 : Fin S2.rank) (BitVec.ofNat 32 sh) none v hr0 (ix2 r c)) = _
  rw [iota_single_apply]
  unfold Scalar.select
  by_cases hre : r.val = e
  · rw [if_pos hre]
    exact (if_pos (hcond.2 hre)).trans negInf_eq
  · rw [if_neg hre]
    refine (if_neg (fun h1 => hre (hcond.1 h1))).trans ?_
    refine dynamicRotate_apply (0 : Fin S2.rank) (BitVec.ofNat 32 sh) v hr0 (ix2 r c) _ ?_
    intro b
    match b with
    | ⟨0, hb⟩ =>
      rw [if_pos (show (⟨0, hb⟩ : Fin S2.rank) = 0 from rfl)]
      show (r.val + 1024 - sh) % 1024 = (r.val + 1024 - (BitVec.ofNat 32 sh).toNat % 1024) % 1024
      rw [toNat_ofNat_small sh hsh, Nat.mod_eq_of_lt hsh]
    | ⟨1, hb⟩ =>
      rw [if_neg (show ¬ (⟨1, hb⟩ : Fin S2.rank) = 0 from fun h => absurd (Fin.val_eq_of_eq h) (by decide : ¬ (1 : ℕ) = ((0 : Fin S2.rank) : ℕ)))]

/-- At `(r, c)`: −∞ on the masked column, else the entry `sh` columns back, around the end. -/
theorem colShift_apply (sh e : ℕ) (hsh : sh < 1024) (he : e < 1024) (v : S2.Idx → EReal) (r c : Fin 1024) :
    colShift hi1 hr1 sh e v (ix2 r c)
      = if c.val = e then (⊥ : EReal) else v (ix2 r (⟨(c.val + 1024 - sh) % 1024, Nat.mod_lt _ (by norm_num)⟩ : Fin 1024)) := by
  have hc := c.isLt
  have hcond : (IntOp.cmpi .eq (BitVec.ofNat 32 c.val) (BitVec.ofNat 32 e) = 1#1) ↔ c.val = e :=
    StableHlo.Predicate.cmpi_eq_iff.trans (ofNat_eq_iff _ _ hc he)
  unfold colShift
  show Scalar.select (IntOp.cmpi .eq (iota .tc S2 32 [(1 : Fin S2.rank)] hi1 (ix2 r c)) (BitVec.ofNat 32 e))
    (FloatOps.ofBits (F := Ideal) .f32 0xFF800000#32) (dynamicRotate (1 : Fin S2.rank) (BitVec.ofNat 32 sh) none v hr1 (ix2 r c)) = _
  rw [iota_single_apply]
  unfold Scalar.select
  by_cases hce : c.val = e
  · rw [if_pos hce]
    exact (if_pos (hcond.2 hce)).trans negInf_eq
  · rw [if_neg hce]
    refine (if_neg (fun h1 => hce (hcond.1 h1))).trans ?_
    refine dynamicRotate_apply (1 : Fin S2.rank) (BitVec.ofNat 32 sh) v hr1 (ix2 r c) _ ?_
    intro b
    match b with
    | ⟨0, hb⟩ =>
      rw [if_neg (show ¬ (⟨0, hb⟩ : Fin S2.rank) = 1 from fun h => absurd (Fin.val_eq_of_eq h) (by decide : ¬ (0 : ℕ) = ((1 : Fin S2.rank) : ℕ)))]
    | ⟨1, hb⟩ =>
      rw [if_pos (show (⟨1, hb⟩ : Fin S2.rank) = 1 from rfl)]
      show (c.val + 1024 - sh) % 1024 = (c.val + 1024 - (BitVec.ofNat 32 sh).toNat % 1024) % 1024
      rw [toNat_ofNat_small sh hsh, Nat.mod_eq_of_lt hsh]

/-- The maximum of each entry with its two vertical neighbours, −∞ beyond the first and last row. -/
def rowsMax (v : S2.Idx → EReal) : S2.Idx → EReal :=
  maximumf (F := Ideal) (φ := .f32) (maximumf (F := Ideal) (φ := .f32) (rowShift hi0 hr0 1 0 v) v) (rowShift hi0 hr0 1023 1023 v)

/-- The maximum of each entry with its two horizontal neighbours, −∞ beyond the first and last column. -/
def colsMax (u : S2.Idx → EReal) : S2.Idx → EReal :=
  maximumf (F := Ideal) (φ := .f32) (maximumf (F := Ideal) (φ := .f32) (colShift hi1 hr1 1 0 u) u) (colShift hi1 hr1 1023 1023 u)

/-- The vertical three-maximum at `(r, c)` is the column maximum of padded column `c + 1` over padded rows
    `r, r + 1, r + 2`. -/
theorem rowsMax_apply (img : Img) (v : S2.Idx → EReal) (hv : ∀ a d, v (ix2 a d) = img a d) (r c : Fin 1024) :
    rowsMax hi0 hr0 v (ix2 r c) = colMax img r.val (c.val + 1) := by
  have hr := r.isLt
  unfold rowsMax colMax
  show max (max (rowShift hi0 hr0 1 0 v (ix2 r c)) (v (ix2 r c))) (rowShift hi0 hr0 1023 1023 v (ix2 r c)) = _
  rw [rowShift_apply hi0 hr0 1 0 (by norm_num) (by norm_num), rowShift_apply hi0 hr0 1023 1023 (by norm_num) (by norm_num)]
  have e1 : (if r.val = 0 then (⊥ : EReal) else v (ix2 (⟨(r.val + 1024 - 1) % 1024, Nat.mod_lt _ (by norm_num)⟩ : Fin 1024) c))
      = padded img r.val (c.val + 1) := by
    by_cases h0 : r.val = 0
    · rw [if_pos h0, padded_out img _ _ (Or.inl h0)]
    · rw [if_neg h0, hv]
      exact (padded_in img _ _ _ c (by show r.val = (r.val + 1024 - 1) % 1024 + 1; omega) rfl).symm
  have e2 : v (ix2 r c) = padded img (r.val + 1) (c.val + 1) := (hv r c).trans (padded_in img _ _ r c rfl rfl).symm
  have e3 : (if r.val = 1023 then (⊥ : EReal) else v (ix2 (⟨(r.val + 1024 - 1023) % 1024, Nat.mod_lt _ (by norm_num)⟩ : Fin 1024) c))
      = padded img (r.val + 2) (c.val + 1) := by
    by_cases h0 : r.val = 1023
    · rw [if_pos h0, padded_out img _ _ (Or.inr (Or.inl (by omega)))]
    · rw [if_neg h0, hv]
      exact (padded_in img _ _ _ c (by show r.val + 2 = (r.val + 1024 - 1023) % 1024 + 1; omega) rfl).symm
  rw [e1, e2, e3]

/-- A column maximum on the ring is −∞. -/
theorem colMax_out (img : Img) (r q : ℕ) (h : q = 0 ∨ 1025 ≤ q) : colMax img r q = ⊥ := by
  unfold colMax
  rw [padded_out img r q (by omega), padded_out img (r + 1) q (by omega), padded_out img (r + 2) q (by omega)]
  simp

/-- The horizontal three-maximum of the column maxima at `(r, c)` is the window maximum around `(r, c)`. -/
theorem colsMax_apply (img : Img) (u : S2.Idx → EReal) (hu : ∀ a d, u (ix2 a d) = colMax img a.val (d.val + 1)) (r c : Fin 1024) :
    colsMax hi1 hr1 u (ix2 r c) = pool img r.val c.val := by
  have hc := c.isLt
  unfold colsMax pool
  show max (max (colShift hi1 hr1 1 0 u (ix2 r c)) (u (ix2 r c))) (colShift hi1 hr1 1023 1023 u (ix2 r c)) = _
  rw [colShift_apply hi1 hr1 1 0 (by norm_num) (by norm_num), colShift_apply hi1 hr1 1023 1023 (by norm_num) (by norm_num)]
  have e1 : (if c.val = 0 then (⊥ : EReal) else u (ix2 r (⟨(c.val + 1024 - 1) % 1024, Nat.mod_lt _ (by norm_num)⟩ : Fin 1024)))
      = colMax img r.val c.val := by
    by_cases h0 : c.val = 0
    · rw [if_pos h0, colMax_out img _ _ (Or.inl h0)]
    · rw [if_neg h0, hu]
      exact congrArg (colMax img r.val) (by show (c.val + 1024 - 1) % 1024 + 1 = c.val; omega)
  have e3 : (if c.val = 1023 then (⊥ : EReal) else u (ix2 r (⟨(c.val + 1024 - 1023) % 1024, Nat.mod_lt _ (by norm_num)⟩ : Fin 1024)))
      = colMax img r.val (c.val + 2) := by
    by_cases h0 : c.val = 1023
    · rw [if_pos h0, colMax_out img _ _ (Or.inr (by omega))]
    · rw [if_neg h0, hu]
      exact congrArg (colMax img r.val) (by show (c.val + 1024 - 1023) % 1024 + 1 = c.val + 2; omega)
  rw [e1, e3, hu r c]

/-- The indicator of a comparison: its bit widened to a word and read signed is the bit read unsigned. -/
theorem sitofp_extui (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_toInt, Int.cast_natCast]

/-- The whole body on one image: keep the pixel where `x − pool + ε > 0`. -/
def body (hlt : 1 < 32) (v1 : S2.Idx → EReal) : S2.Idx → EReal :=
  mulf (F := Ideal) (φ := .f32)
    (sitofp (F := Ideal) .f32 (extui 32 (cmpf (F := Ideal) (φ := .f32) .ogt
      (addf (F := Ideal) (φ := .f32) (subf (F := Ideal) (φ := .f32) v1 (colsMax hi1 hr1 (rowsMax hi0 hr0 v1)))
        (broadcast S2 (FloatOps.ofBits (F := Ideal) .f32 0x3727C5AC#32)))
      (broadcast S2 (FloatOps.ofBits (F := Ideal) .f32 0x00000000#32))) hlt))
    v1

theorem body_apply (hlt : 1 < 32) (img : Img) (v1 : S2.Idx → EReal) (hv : ∀ a d, v1 (ix2 a d) = img a d) (r c : Fin 1024) :
    body hi0 hr0 hi1 hr1 hlt v1 (ix2 r c) = nmsAt img r c := by
  unfold body nmsAt
  show FloatOps.mulf (F := Ideal) (φ := .f32)
    (FloatOps.sitofp (F := Ideal) .f32 ((FloatOps.cmpf (F := Ideal) (φ := .f32) .ogt
      (FloatOps.addf (F := Ideal) (φ := .f32) (FloatOps.subf (F := Ideal) (φ := .f32) (v1 (ix2 r c)) (colsMax hi1 hr1 (rowsMax hi0 hr0 v1) (ix2 r c)))
        (FloatOps.ofBits (F := Ideal) .f32 0x3727C5AC#32))
      (FloatOps.ofBits (F := Ideal) .f32 0x00000000#32)).setWidth 32))
    (v1 (ix2 r c)) = _
  rw [colsMax_apply hi1 hr1 img _ (fun a d => rowsMax_apply hi0 hr0 img v1 hv a d), hv, sitofp_extui]

end Rotations

/-- The result at a pixel depends on the image, the row and the column only. -/
theorem nmsAt_congr {img img' : Img} {r r' c c' : Fin 1024} (h1 : img = img') (h2 : r = r') (h3 : c = c') :
    nmsAt img r c = nmsAt img' r' c' := by
  subst h1 h2 h3; rfl

end Cert.Pool

end
-- ==== Proof.KernelValue.lean ====
/-
  What the kernel leaves in its result array, at the ideal instance.

  The grid has one point per image. At point `t` the body loads image `t` whole (a 1 × 1 × 1024 × 1024 block, viewed
  as a 1024 × 1024 image), computes on it, and stores the result whole. The body's arithmetic is exactly the masked
  rotations and the pointwise tail whose value at a pixel is `Pool.nmsAt` (`pay2_eq`, by unfolding; `out_apply`).
  Block `t` of the input array is image `t`, and block `t` of the output array is where point `t` writes, so what
  point `t` writes back is block `t` of the whole-array function `Pool.G` of the argument (`flushed_eq`); the 32 blocks
  cover the array (`cover`), so the array ends holding `Pool.G` of the argument (`final`, `run`).
-/
import proofs.«177633_j22857815949340_1_alg».proof.Proof.Gen.KernelIdeal.Value
import proofs.«177633_j22857815949340_1_alg».proof.Proof.Body

noncomputable section

namespace Cert.KernelIdeal.NmsValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The body's arithmetic, from the loaded block to the stored image, is the masked-rotation body of the block
    viewed as an image. -/
theorem pay2_eq (P0 : Vec Ideal S1x1x1024x1024 .f32) :
    k0_pay2 (F := Ideal) P0
      = Pool.body iota_S1024x1024_d0_w32 rotates_S1024x1024_d0 iota_S1024x1024_d1_w32 rotates_S1024x1024_d1 natLt_1_32
          (shapeCast S1024x1024 P0 shapeCasts_S1x1x1024x1024_S1024x1024) := rfl

/-- The block viewed as an image: pixel `(a, d)` is the block's entry `(0, 0, a, d)`. -/
theorem img_of_block (P0 : Vec Ideal S1x1x1024x1024 .f32) (a d : Fin 1024) :
    shapeCast S1024x1024 P0 shapeCasts_S1x1x1024x1024_S1024x1024 (ix2 a d) = P0 (ix4 (0 : Fin 1) (0 : Fin 1) a d) := by
  refine shapeCast_apply _ _ (ix2 a d) (ix4 (0 : Fin 1) (0 : Fin 1) a d) ?_
  rw [Shape.rowMajor_val_four, Shape.rowMajor_val_two]
  show ((0 * 1 + 0) * 1024 + a.val) * 1024 + d.val = a.val * 1024 + d.val
  omega

/-- What the body leaves in the output block, entry by entry: the result at the pixel of the loaded image. -/
theorem out_apply (P0 : Vec Ideal S1x1x1024x1024 .f32) (y : S1x1x1024x1024.Idx) :
    out0_1 P0 y = Pool.nmsAt (fun a d => P0 (ix4 (0 : Fin 1) (0 : Fin 1) a d)) (y 2) (y 3) := by
  unfold out0_1
  rw [Value.canon1_eq]
  show k0_pay2 (View.ld P0 r0_0) (Value.ix1_0 y) = _
  simp only [View.ld_unit_zero (S := S1x1x1024x1024) hz]
  rw [pay2_eq]
  have hy : Value.ix1_0 y = ix2 (y 2) (y 3) := by
    funext a; match a with | ⟨0, _⟩ => rfl | ⟨1, _⟩ => rfl
  rw [hy]
  exact Pool.body_apply _ _ _ _ _ _ _ (fun a d => img_of_block P0 a d) (y 2) (y 3)

/-- The printed index maps, decided over the 32 grid points: both windows' block index is `(t, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- Every image is some point's block. -/
theorem idx_onto : ∀ q : Fin 32, ∃ t : Fin cfg0.N, win0_1.index t = ![q.val, 0, 0, 0] :=
  (by decide +kernel : ∀ q : Fin 32, ∃ t : Fin grid0.N, win0_1.index t = ![q.val, 0, 0, 0])

/-- WHAT POINT `t` WRITES BACK is block `t` of `Pool.G` of the argument array. -/
theorem flushed_eq (c : Dev nD) (t : Fin cfg0.N) :
    (dats m 0 c).flushed 1 t = ((cfg0.win 1).blk t).view.read (Elt Ideal) (Pool.G (V m c main_arg0)) := by
  rw [Value.flushed1]
  obtain ⟨a0, a1, a2, a3, b0, b1, b2, b3⟩ := idx_facts t
  funext y
  have hy0 : (y 0).val < 1 := (y 0).isLt
  have hy1 : (y 1).val < 1 := (y 1).isLt
  show out0_1 (iblk m c 0 t) y = Pool.G (V m c main_arg0) (((cfg0.win 1).blk t).view.emb y)
  refine (out_apply (iblk m c 0 t) y).trans ?_
  unfold Pool.G
  refine Pool.nmsAt_congr ?_ ?_ ?_
  · funext a d
    show V m c main_arg0 (((cfg0.win 0).blk t).view.emb (ix4 (0 : Fin 1) (0 : Fin 1) a d))
      = V m c main_arg0 (ix4 ((((cfg0.win 1).blk t).view.emb y) 0) (0 : Fin 1) a d)
    refine congrArg (V m c main_arg0) (funext fun e => Fin.ext ?_)
    match e with
    | ⟨0, _⟩ => show win0_0.index t (0 : Fin 4) * 1 + 1 * 0 = win0_1.index t (0 : Fin 4) * 1 + 1 * (y 0).val; omega
    | ⟨1, _⟩ => show win0_0.index t (1 : Fin 4) * 1 + 1 * 0 = 0; omega
    | ⟨2, _⟩ => show win0_0.index t (2 : Fin 4) * 1024 + 1 * a.val = a.val; omega
    | ⟨3, _⟩ => show win0_0.index t (3 : Fin 4) * 1024 + 1 * d.val = d.val; omega
  · exact Fin.ext (show (y 2).val = win0_1.index t (2 : Fin 4) * 1024 + 1 * (y 2).val from by omega)
  · exact Fin.ext (show (y 3).val = win0_1.index t (3 : Fin 4) * 1024 + 1 * (y 3).val from by omega)

/-- An index of the array is in point `t`'s block iff each coordinate is in the block's range on its axis. -/
theorem mem_blk (t : Fin cfg0.N) (i : S32x1x1024x1024.Idx) :
    i ∈ ((cfg0.win 1).blk t).view.set ↔ ∀ a : Fin 4, win0_1.index t a * S1x1x1024x1024.size a ≤ (i a).val ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- The 32 blocks cover the array: index `i` is in the block of the point whose image is `i 0`. -/
theorem cover (i : S32x1x1024x1024.Idx) :
    ∃ t : Fin cfg0.N, (cfg0.win 1).flush t = true ∧ i ∈ ((cfg0.win 1).blk t).view.set := by
  have hi1 : (i 1).val < 1 := (i 1).isLt
  have hi2 : (i 2).val < 1024 := (i 2).isLt
  have hi3 : (i 3).val < 1024 := (i 3).isLt
  obtain ⟨t, ht⟩ := idx_onto (i 0)
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

/-- THE ARRAY after the run is `Pool.G` of the argument array. -/
theorem final (c : Dev nD) : (dats m 0 c).arrAt 1 cfg0.N = Pool.G (m ((c : Thread nD τ).loc main_arg0)) :=
  (dats m 0 c).arrAt_eq_of_cover 1 (Pool.G (V m c main_arg0)) (fun t _ => flushed_eq m c t) cover

/-- The kernel's run, read: the result array at `Pool.G` of the argument, the argument unchanged. -/
theorem run : θ_run defs (onTc (τ := τ) (main (F := Ideal))) ⟨m, fun _ => 0, ρ⟩ fun r => ∀ c : Dev nD,
      r.2.mem ((c : Thread nD τ).loc main_v0) = Pool.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.NmsValue

end
-- ==== Proof.RefValue.lean ====
/-
  What the reference computes, at the ideal instance: its last stage is `Pool.G` of the argument.

  Every operation of the reference but one reads one element of each operand, so the result at an index is the
  pointwise tail — subtract, add ε, compare with 0, the comparison's bit as 0 or 1, multiply by the pixel — of the
  windowed maximum at that index. The windowed maximum, a fold of `max` from the −∞ initial value over the 3 × 3
  window with −∞ padding, is the window maximum `Pool.pool` of the index's image (`Pool.reduceWindow_at`).
-/
import proofs.«177633_j22857815949340_1_alg».proof.Proof.Gen.ReferenceIdeal.Read
import proofs.«177633_j22857815949340_1_alg».proof.Proof.Pool

noncomputable section

namespace Cert.ReferenceIdeal.NmsValue

open Cert.ReferenceIdeal Cert.ReferenceIdeal.Gen Cert.ReferenceIdeal.Read Idealize.ShloMosaic Idealize.ShloMosaic.TcCoe
open Idealize.ShloMosaic.ValueIdx

/-- The reduction's initial value is −∞. -/
theorem init_eq (i : S_.Idx) : val_main_v0 (F := Ideal) i = (⊥ : EReal) := by
  rw [val_main_v0_apply, val_main_cst_apply]
  exact Pool.negInf_eq

/-- The windowed maximum at `(b, 0, r, c)` is the window maximum of image `b` around pixel `(r, c)`. -/
theorem val_main_v1_apply (x0 : S32x1x1024x1024.Idx → EReal) (b : Fin 32) (r c : Fin 1024) :
    val_main_v1 (F := Ideal) x0 (ix4 b (0 : Fin 1) r c) = Pool.pool (fun a d => x0 (ix4 b (0 : Fin 1) a d)) r.val c.val := by
  unfold val_main_v1
  exact Pool.reduceWindow_at x0 (val_main_v0 (F := Ideal)) init_eq _ _ b r c

/-- THE REFERENCE'S RESULT is `Pool.G` of its argument. -/
theorem result_eq (x0 : S32x1x1024x1024.Idx → EReal) : val_main_v8 (F := Ideal) x0 = Pool.G x0 := by
  funext i
  obtain ⟨b, z, r, c, rfl⟩ : ∃ (b : Fin 32) (z : Fin 1) (r c : Fin 1024), i = ix4 b z r c := ⟨i 0, i 1, i 2, i 3, eq_ix4 i⟩
  have hz : z = 0 := Subsingleton.elim _ _
  subst hz
  rw [val_main_v8_apply, val_main_v7_apply, val_main_v6_apply, val_main_v4_apply, val_main_v2_apply, val_main_v3_apply,
    val_main_cst_0_apply, val_main_v5_apply, val_main_cst_1_apply, val_main_v1_apply]
  rfl

end Cert.ReferenceIdeal.NmsValue

end
-- ==== Proof.lean ====
/-
  Non-maximum suppression by a 3×3 window on 32 images of 1024 × 1024 floats: the result keeps a pixel `x` where
  `x − mp + ε > 0`, with `mp` the maximum of the 3×3 window around it (−∞ outside the image), and is 0 elsewhere.

  The kernel takes one image per grid point and finds `mp` separably: the maximum of each pixel with its upper and
  lower neighbour (two rotations along the rows, the wrapped-around border row masked to −∞), then the maximum of
  each such value with its left and right neighbour (the same along the columns). The reference takes `mp` as one
  windowed maximum over the whole array, a fold of `max` from −∞ over the nine window positions with −∞ padding.
  On the extended reals both are the least upper bound of the same nine padded entries (Proof/Pool.lean,
  Proof/Body.lean): `max` is associative, commutative and idempotent and −∞ is its identity, so no finiteness of
  the input is needed and the precondition is not opened. The remaining operations are the same pointwise ones on
  both sides, with the same literal ε; the comparison's bit becomes 0 or 1 either by widening it and reading the
  word signed (kernel) or by reading it unsigned (reference), which is the same number.

  So both programs end with the result array at `Pool.G` of the argument array (Proof/KernelValue.lean for the
  kernel, over its generated frame run block by block; Proof/RefValue.lean for the reference, over its generated
  run read one operation at a time). The frames are the generated ones; the kernel's idealization rewrote no
  operation, so `preserves` has nothing to state.
-/
import proofs.«177633_j22857815949340_1_alg».proof.Defs
import proofs.«177633_j22857815949340_1_alg».proof.Proof.Gen.Kernel
import proofs.«177633_j22857815949340_1_alg».proof.Proof.Gen.Kernel.Skeleton
import proofs.«177633_j22857815949340_1_alg».proof.Proof.Gen.Kernel.Launch
import proofs.«177633_j22857815949340_1_alg».proof.Proof.Gen.Kernel.Points
import proofs.«177633_j22857815949340_1_alg».proof.Proof.Gen.Kernel.Frame
import proofs.«177633_j22857815949340_1_alg».proof.Proof.Gen.KernelIdeal
import proofs.«177633_j22857815949340_1_alg».proof.Proof.Gen.KernelIdeal.Skeleton
import proofs.«177633_j22857815949340_1_alg».proof.Proof.Gen.KernelIdeal.Launch
import proofs.«177633_j22857815949340_1_alg».proof.Proof.Gen.KernelIdeal.Points
import proofs.«177633_j22857815949340_1_alg».proof.Proof.Gen.KernelIdeal.Frame
import proofs.«177633_j22857815949340_1_alg».proof.Proof.Gen.ReferenceIdeal
import proofs.«177633_j22857815949340_1_alg».proof.Proof.Gen.Pre_finite_inputs
import proofs.«177633_j22857815949340_1_alg».proof.Proof.Gen.KernelIdeal.Value
import proofs.«177633_j22857815949340_1_alg».proof.Proof.Gen.ReferenceIdeal.Run
import proofs.«177633_j22857815949340_1_alg».proof.Proof.Gen.ReferenceIdeal.Read
import proofs.«177633_j22857815949340_1_alg».proof.Proof.KernelValue
import proofs.«177633_j22857815949340_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the argument, both programs end with the result array at `Pool.G` of it. -/
theorem algebraic : Cert.algebraic_KernelIdeal_ReferenceIdeal := by
  intro m ρ m' ρ' _ hagree
  refine ⟨_, Cert.KernelIdeal.NmsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.NmsValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
